-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 122
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .i1⟩
  | .hbm, ⟨77, _⟩ => ⟨S100000, .f32⟩
  | .hbm, ⟨78, _⟩ => ⟨S_, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S100000x64, .f32⟩
  | .hbm, ⟨103, _⟩ => ⟨S1700000x1, .f32⟩
  | .hbm, ⟨104, _⟩ => ⟨S_, .i32⟩
  | .hbm, ⟨105, _⟩ => ⟨S1700000, .i32⟩
  | .hbm, ⟨106, _⟩ => ⟨S1700000, .i1⟩
  | .hbm, ⟨107, _⟩ => ⟨S_, .i32⟩
  | .hbm, ⟨108, _⟩ => ⟨S1700000, .i32⟩
  | .hbm, ⟨109, _⟩ => ⟨S1700000, .i32⟩
  | .hbm, ⟨110, _⟩ => ⟨S1700000, .i32⟩
  | .hbm, ⟨111, _⟩ => ⟨S1700000x1, .i32⟩
  | .hbm, ⟨112, _⟩ => ⟨S1700000x64, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_call2_v0 : Ref sig .tc := ⟨.hbm, 79, rfl⟩
abbrev main_call2_v1 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .i1⟩
  | .hbm, ⟨77, _⟩ => ⟨S100000, .f32⟩
  | .hbm, ⟨78, _⟩ => ⟨S_, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S100000x64, .f32⟩
  | .hbm, ⟨103, _⟩ => ⟨S1700000x1, .f32⟩
  | .hbm, ⟨104, _⟩ => ⟨S_, .i32⟩
  | .hbm, ⟨105, _⟩ => ⟨S1700000, .i32⟩
  | .hbm, ⟨106, _⟩ => ⟨S1700000, .i1⟩
  | .hbm, ⟨107, _⟩ => ⟨S_, .i32⟩
  | .hbm, ⟨108, _⟩ => ⟨S1700000, .i32⟩
  | .hbm, ⟨109, _⟩ => ⟨S1700000, .i32⟩
  | .hbm, ⟨110, _⟩ => ⟨S1700000, .i32⟩
  | .hbm, ⟨111, _⟩ => ⟨S1700000x1, .i32⟩
  | .hbm, ⟨112, _⟩ => ⟨S1700000x64, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_call2_v0 : Ref sig .tc := ⟨.hbm, 79, rfl⟩
abbrev main_call2_v1 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.ProjectionArrays.lean ====
import proofs.«115041_j18915035972100_1_alg».proof.Proof.Gen.KernelIdeal.Frame
import proofs.«115041_j18915035972100_1_alg».proof.Proof.Gen.ReferenceIdeal
import Idealize.ShloMosaic.PureOps.Ideal.Laws
import Idealize.ShloMosaic.Lib.Pipeline.Value
import Idealize.ShloMosaic.Lib.ValueIdx

noncomputable section
namespace Cert.KernelIdeal.Projection
open Idealize.ShloMosaic Idealize.ShloMosaic.TcCoe Idealize.SL.Sem
open Cert.KernelIdeal Cert.KernelIdeal.Gen
open Idealize.ShloMosaic.Pipeline (Dat)

/-! # The two projections x @ W as whole arrays

Each projection is a pipelined kernel over 20 row blocks of 5000 rows. The body stores the product of the left
operand's row block with the whole right operand. At the ideal values that product, read at row y0 of block t and
column y1, is the sum over k < 128 of x[5000 t + y0, k] * w[k, y1]: the contraction of the WHOLE operands at the
array index (5000 t + y0, y1). The 20 blocks tile the 100000 rows, so the output array ends holding the contraction
of the region's two operand arrays. -/

/-! ## Region 0: the contraction [100000,128] x [128,128] of the whole arrays, at an index -/

theorem whole0_lhs_0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem whole0_lhs_1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem whole0_rhs_0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem whole0_rhs_1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- Row r, column k of a [100000,128] array. -/
abbrev leftAt (r : Fin 100000) (k : Fin 128) : S100000x128.Idx := fun a => match a with
  | ⟨0, _⟩ => ⟨r.val, r.isLt⟩
  | ⟨1, _⟩ => ⟨k.val, k.isLt⟩
/-- Row k, column n of a [128,128] array. -/
abbrev rightAt0 (k : Fin 128) (n : Fin 128) : S128x128.Idx := fun a => match a with
  | ⟨0, _⟩ => ⟨k.val, k.isLt⟩
  | ⟨1, _⟩ => ⟨n.val, n.isLt⟩

/-- The contraction of the whole operands at an index: the sum over the 128 shared coordinates of the left operand's
    row times the right operand's column. -/
theorem whole0_apply (X : FVec Ideal S100000x128 .f32) (W : FVec Ideal S128x128 .f32) (i : S100000x128.Idx) :
    Host.dotGeneral (F := Ideal) (φ₁ := .f32) (φ₂ := .f32) Cert.ReferenceIdeal.dot_S100000x128_S128x128_S100000x128_1_0_0_1_n_n none X W i
      = ∑ k : Fin 128, X (leftAt ⟨(i 0).val, (i 0).isLt⟩ k) * W (rightAt0 k ⟨(i 1).val, (i 1).isLt⟩) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = leftAt ⟨(i 0).val, (i 0).isLt⟩ k := funext fun a => Fin.ext (by
    match a with
    | ⟨0, _⟩ => exact whole0_lhs_0 _ _
    | ⟨1, _⟩ => exact (whole0_lhs_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = rightAt0 k ⟨(i 1).val, (i 1).isLt⟩ := funext fun a => Fin.ext (by
    match a with
    | ⟨0, _⟩ => exact (whole0_rhs_0 _ _).trans hk
    | ⟨1, _⟩ => exact whole0_rhs_1 _ _)
  rw [el, er]

/-! ## Region 0: the body's product of its blocks, at an index -/

theorem block0_lhs_0 (y : S5000x128.Idx) (q : dot_S5000x128_S128x128_S5000x128_1_0_0_1_n_n.contr.Idx) :
    (dot_S5000x128_S128x128_S5000x128_1_0_0_1_n_n.lhsIdx y q 0).val = (y 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem block0_lhs_1 (y : S5000x128.Idx) (q : dot_S5000x128_S128x128_S5000x128_1_0_0_1_n_n.contr.Idx) :
    (dot_S5000x128_S128x128_S5000x128_1_0_0_1_n_n.lhsIdx y q 1).val = (q ⟨0, by decide⟩).val :=
  dot_S5000x128_S128x128_S5000x128_1_0_0_1_n_n.lhsIdx_val_of_single rfl y q
theorem block0_rhs_0 (y : S5000x128.Idx) (q : dot_S5000x128_S128x128_S5000x128_1_0_0_1_n_n.contr.Idx) :
    (dot_S5000x128_S128x128_S5000x128_1_0_0_1_n_n.rhsIdx y q 0).val = (q ⟨0, by decide⟩).val :=
  dot_S5000x128_S128x128_S5000x128_1_0_0_1_n_n.rhsIdx_val_of_single rfl y q
theorem block0_rhs_1 (y : S5000x128.Idx) (q : dot_S5000x128_S128x128_S5000x128_1_0_0_1_n_n.contr.Idx) :
    (dot_S5000x128_S128x128_S5000x128_1_0_0_1_n_n.rhsIdx y q 1).val = (y 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row r, column k of a [5000,128] block. -/
abbrev blockLeftAt (r : Fin 5000) (k : Fin 128) : S5000x128.Idx := fun a => match a with
  | ⟨0, _⟩ => ⟨r.val, r.isLt⟩
  | ⟨1, _⟩ => ⟨k.val, k.isLt⟩

/-- What the body stores, at an index of the block: the two casts are the identity at the ideal values and the product
    accumulates into zero, so it is the sum over the 128 shared coordinates of the left block's row times the right
    operand's column. -/
theorem block0_apply (x : Vec Ideal S5000x128 .f32) (w : Vec Ideal S128x128 .f32) (y : S5000x128.Idx) :
    k0_pay1 (F := Ideal) x w y
      = ∑ k : Fin 128, x (blockLeftAt ⟨(y 0).val, (y 0).isLt⟩ k) * w (rightAt0 k ⟨(y 1).val, (y 1).isLt⟩) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = blockLeftAt ⟨(y 0).val, (y 0).isLt⟩ k := funext fun a => Fin.ext (by
    match a with
    | ⟨0, _⟩ => exact block0_lhs_0 _ _
    | ⟨1, _⟩ => exact (block0_lhs_1 _ _).trans hk)
  have er : dot_S5000x128_S128x128_S5000x128_1_0_0_1_n_n.rhsIdx y ((ValueIdx.contrEquiv1 dot_S5000x128_S128x128_S5000x128_1_0_0_1_n_n 128 rfl rfl).symm k) = rightAt0 k ⟨(y 1).val, (y 1).isLt⟩ := funext fun a => Fin.ext (by
    match a with
    | ⟨0, _⟩ => exact (block0_rhs_0 _ _).trans hk
    | ⟨1, _⟩ => exact block0_rhs_1 _ _)
  rw [el, er]
  rfl

/-! ## Region 0: from the blocks to the array -/

/-- Rows b * 5000 .. b * 5000 + 4999 of the left operand and the whole right operand give those rows of the contraction
    of the whole operands: the body's product at (y0, y1) is the whole contraction at (b * 5000 + y0, y1). -/
theorem block0_eq_whole (X : FVec Ideal S100000x128 .f32) (W : FVec Ideal S128x128 .f32)
    (x : Vec Ideal S5000x128 .f32) (w : Vec Ideal S128x128 .f32) (b : Nat)
    (hx : ∀ (y : S5000x128.Idx) (i : S100000x128.Idx), (i 0).val = b * 5000 + (y 0).val → (i 1).val = (y 1).val → x y = X i)
    (hw : ∀ j : S128x128.Idx, w j = W j)
    (y : S5000x128.Idx) (i : S100000x128.Idx) (h0 : (i 0).val = b * 5000 + (y 0).val) (h1 : (i 1).val = (y 1).val) :
    k0_pay1 (F := Ideal) x w y
      = Host.dotGeneral (F := Ideal) (φ₁ := .f32) (φ₂ := .f32) Cert.ReferenceIdeal.dot_S100000x128_S128x128_S100000x128_1_0_0_1_n_n none X W i := by
  rw [block0_apply, whole0_apply]
  refine Finset.sum_congr rfl fun k _ => ?_
  have e1 : (⟨(y 1).val, (y 1).isLt⟩ : Fin 128) = ⟨(i 1).val, (i 1).isLt⟩ := Fin.ext h1.symm
  rw [e1, hw, hx (blockLeftAt ⟨(y 0).val, (y 0).isLt⟩ k) (leftAt ⟨(i 0).val, (i 0).isLt⟩ k) h0 rfl]

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: at point t the left operand's and the output's block is row block t of the
    one column block, and the right operand's block is the whole array. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the contraction of the two operand arrays as the region finds them. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x128_S128x128_S100000x128_1_0_0_1_n_n none (V c main_arg0 : FVec Ideal S100000x128 .f32) (V c main_arg2 : FVec Ideal S128x128 .f32)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨a0, a1, b0, b1, o0, o1⟩ := blockIndex0 t
  funext y
  refine block0_eq_whole (V c main_arg0) (V c main_arg2) (iblk0 V c 0 t) (iblk0 V c 1 t) t.val ?_ ?_ _ (((cfg0.win 2).blk t).view.emb y) ?_ ?_
  · intro y' i h0 h1
    show V c main_arg0 (((cfg0.win 0).blk t).view.emb y') = V c main_arg0 i
    refine congrArg _ (funext fun a => Fin.ext ?_)
    match a with
    | ⟨0, _⟩ => show win0_0.index t (0 : Fin 2) * 5000 + 1 * (y' 0).val = (i 0).val; omega
    | ⟨1, _⟩ => show win0_0.index t (1 : Fin 2) * 128 + 1 * (y' 1).val = (i 1).val; omega
  · intro j
    show V c main_arg2 (((cfg0.win 1).blk t).view.emb j) = V c main_arg2 j
    refine congrArg _ (funext fun a => Fin.ext ?_)
    match a with
    | ⟨0, _⟩ => show win0_1.index t (0 : Fin 2) * 128 + 1 * (j 0).val = (j 0).val; omega
    | ⟨1, _⟩ => show win0_1.index t (1 : Fin 2) * 128 + 1 * (j 1).val = (j 1).val; omega
  · show win0_2.index t (0 : Fin 2) * 5000 + 1 * (y 0).val = t.val * 5000 + (y 0).val; omega
  · show win0_2.index t (1 : Fin 2) * 128 + 1 * (y 1).val = (y 1).val; omega

/-- An index of the output array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- The 20 row blocks tile the 100000 rows: row r lies in the block of point r / 5000, and every point writes back. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := rfl
  have ht : (i 0).val / 5000 < cfg0.N := by rw [hN]; omega
  obtain ⟨-, -, -, -, o0, o1⟩ := blockIndex0 ⟨(i 0).val / 5000, ht⟩
  refine ⟨⟨(i 0).val / 5000, ht⟩, flush0_2 _, ?_⟩
  rw [mem_block0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [o1]; omega

/-- REGION 0: the output array ends holding the contraction of the two operand arrays as the region finds them. -/
theorem region0_array (c : Dev nD) :
    ((dat0 (F := Ideal) V c).arrAt 2 cfg0.N : FVec Ideal S100000x128 .f32)
      = Host.dotGeneral (F := Ideal) (φ₁ := .f32) (φ₂ := .f32) Cert.ReferenceIdeal.dot_S100000x128_S128x128_S100000x128_1_0_0_1_n_n none (V c main_arg0 : FVec Ideal S100000x128 .f32) (V c main_arg2 : FVec Ideal S128x128 .f32) :=
  (dat0 (F := Ideal) V c).arrAt_eq_of_cover 2 _ (fun t _ => flushed0_eq V c t) covered0

/-! ## Region 1: the contraction [100000,128] x [128,64] of the whole arrays, at an index -/

theorem whole1_lhs_0 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem whole1_lhs_1 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem whole1_rhs_0 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem whole1_rhs_1 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- Row k, column n of a [128,64] array. -/
abbrev rightAt1 (k : Fin 128) (n : Fin 64) : S128x64.Idx := fun a => match a with
  | ⟨0, _⟩ => ⟨k.val, k.isLt⟩
  | ⟨1, _⟩ => ⟨n.val, n.isLt⟩

/-- The contraction of the whole operands at an index: the sum over the 128 shared coordinates of the left operand's
    row times the right operand's column. -/
theorem whole1_apply (X : FVec Ideal S100000x128 .f32) (W : FVec Ideal S128x64 .f32) (i : S100000x64.Idx) :
    Host.dotGeneral (F := Ideal) (φ₁ := .f32) (φ₂ := .f32) Cert.ReferenceIdeal.dot_S100000x128_S128x64_S100000x64_1_0_0_1_n_n none X W i
      = ∑ k : Fin 128, X (leftAt ⟨(i 0).val, (i 0).isLt⟩ k) * W (rightAt1 k ⟨(i 1).val, (i 1).isLt⟩) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = leftAt ⟨(i 0).val, (i 0).isLt⟩ k := funext fun a => Fin.ext (by
    match a with
    | ⟨0, _⟩ => exact whole1_lhs_0 _ _
    | ⟨1, _⟩ => exact (whole1_lhs_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = rightAt1 k ⟨(i 1).val, (i 1).isLt⟩ := funext fun a => Fin.ext (by
    match a with
    | ⟨0, _⟩ => exact (whole1_rhs_0 _ _).trans hk
    | ⟨1, _⟩ => exact whole1_rhs_1 _ _)
  rw [el, er]

/-! ## Region 1: the body's product of its blocks, at an index -/

theorem block1_lhs_0 (y : S5000x64.Idx) (q : dot_S5000x128_S128x64_S5000x64_1_0_0_1_n_n.contr.Idx) :
    (dot_S5000x128_S128x64_S5000x64_1_0_0_1_n_n.lhsIdx y q 0).val = (y 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem block1_lhs_1 (y : S5000x64.Idx) (q : dot_S5000x128_S128x64_S5000x64_1_0_0_1_n_n.contr.Idx) :
    (dot_S5000x128_S128x64_S5000x64_1_0_0_1_n_n.lhsIdx y q 1).val = (q ⟨0, by decide⟩).val :=
  dot_S5000x128_S128x64_S5000x64_1_0_0_1_n_n.lhsIdx_val_of_single rfl y q
theorem block1_rhs_0 (y : S5000x64.Idx) (q : dot_S5000x128_S128x64_S5000x64_1_0_0_1_n_n.contr.Idx) :
    (dot_S5000x128_S128x64_S5000x64_1_0_0_1_n_n.rhsIdx y q 0).val = (q ⟨0, by decide⟩).val :=
  dot_S5000x128_S128x64_S5000x64_1_0_0_1_n_n.rhsIdx_val_of_single rfl y q
theorem block1_rhs_1 (y : S5000x64.Idx) (q : dot_S5000x128_S128x64_S5000x64_1_0_0_1_n_n.contr.Idx) :
    (dot_S5000x128_S128x64_S5000x64_1_0_0_1_n_n.rhsIdx y q 1).val = (y 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores, at an index of the block: the cast to the same shape and the two casts of format are the
    identity at the ideal values and the product accumulates into zero, so it is the sum over the 128 shared
    coordinates of the left block's row times the right operand's column. -/
theorem block1_apply (x : Vec Ideal S5000x128 .f32) (w : Vec Ideal S128x64 .f32) (y : S5000x64.Idx) :
    k1_pay1 (F := Ideal) x w y
      = ∑ k : Fin 128, x (blockLeftAt ⟨(y 0).val, (y 0).isLt⟩ k) * w (rightAt1 k ⟨(y 1).val, (y 1).isLt⟩) := by
  unfold k1_pay1
  simp only [matmul, shapeCast_self]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx y ((ValueIdx.contrEquiv1 dot_S5000x128_S128x64_S5000x64_1_0_0_1_n_n 128 rfl rfl).symm k) = blockLeftAt ⟨(y 0).val, (y 0).isLt⟩ k := funext fun a => Fin.ext (by
    match a with
    | ⟨0, _⟩ => exact block1_lhs_0 _ _
    | ⟨1, _⟩ => exact (block1_lhs_1 _ _).trans hk)
  have er : dot_S5000x128_S128x64_S5000x64_1_0_0_1_n_n.rhsIdx y ((ValueIdx.contrEquiv1 dot_S5000x128_S128x64_S5000x64_1_0_0_1_n_n 128 rfl rfl).symm k) = rightAt1 k ⟨(y 1).val, (y 1).isLt⟩ := funext fun a => Fin.ext (by
    match a with
    | ⟨0, _⟩ => exact (block1_rhs_0 _ _).trans hk
    | ⟨1, _⟩ => exact block1_rhs_1 _ _)
  rw [el, er]
  rfl

/-! ## Region 1: from the blocks to the array -/

/-- Rows b * 5000 .. b * 5000 + 4999 of the left operand and the whole right operand give those rows of the contraction
    of the whole operands: the body's product at (y0, y1) is the whole contraction at (b * 5000 + y0, y1). -/
theorem block1_eq_whole (X : FVec Ideal S100000x128 .f32) (W : FVec Ideal S128x64 .f32)
    (x : Vec Ideal S5000x128 .f32) (w : Vec Ideal S128x64 .f32) (b : Nat)
    (hx : ∀ (y : S5000x128.Idx) (i : S100000x128.Idx), (i 0).val = b * 5000 + (y 0).val → (i 1).val = (y 1).val → x y = X i)
    (hw : ∀ j : S128x64.Idx, w j = W j)
    (y : S5000x64.Idx) (i : S100000x64.Idx) (h0 : (i 0).val = b * 5000 + (y 0).val) (h1 : (i 1).val = (y 1).val) :
    k1_pay1 (F := Ideal) x w y
      = Host.dotGeneral (F := Ideal) (φ₁ := .f32) (φ₂ := .f32) Cert.ReferenceIdeal.dot_S100000x128_S128x64_S100000x64_1_0_0_1_n_n none X W i := by
  rw [block1_apply, whole1_apply]
  refine Finset.sum_congr rfl fun k _ => ?_
  have e1 : (⟨(y 1).val, (y 1).isLt⟩ : Fin 64) = ⟨(i 1).val, (i 1).isLt⟩ := Fin.ext h1.symm
  rw [e1, hw, hx (blockLeftAt ⟨(y 0).val, (y 0).isLt⟩ k) (leftAt ⟨(i 0).val, (i 0).isLt⟩ k) h0 rfl]

/-- The printed index maps over the grid: at point t the left operand's and the output's block is row block t of the
    one column block, and the right operand's block is the whole array. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the contraction of the two operand arrays as the region finds them. -/
theorem flushed1_eq (c : Dev nD) (t : Fin cfg1.N) :
    (dat1 (F := Ideal) V c).flushed 2 t = ((cfg1.win 2).blk t).view.read (Elt Ideal)
      (Host.dotGeneral (F := Ideal) (φ₁ := .f32) (φ₂ := .f32) Cert.ReferenceIdeal.dot_S100000x128_S128x64_S100000x64_1_0_0_1_n_n none (V c main_v48 : FVec Ideal S100000x128 .f32) (V c main_arg4 : FVec Ideal S128x64 .f32)) := by
  show (cfg1.win 2).cut (grid1.coords t) ((dat1 V c).after 2 t) = _
  rw [after1_2]
  unfold out1_2
  rw [View.canon_unit_zero zeroOffsets]
  simp only [View.ld_unit_zero (S := S5000x128) zeroOffsets, View.ld_unit_zero (S := S128x64) zeroOffsets]
  obtain ⟨a0, a1, b0, b1, o0, o1⟩ := blockIndex1 t
  funext y
  refine block1_eq_whole (V c main_v48) (V c main_arg4) (iblk1 V c 0 t) (iblk1 V c 1 t) t.val ?_ ?_ _ (((cfg1.win 2).blk t).view.emb y) ?_ ?_
  · intro y' i h0 h1
    show V c main_v48 (((cfg1.win 0).blk t).view.emb y') = V c main_v48 i
    refine congrArg _ (funext fun a => Fin.ext ?_)
    match a with
    | ⟨0, _⟩ => show win1_0.index t (0 : Fin 2) * 5000 + 1 * (y' 0).val = (i 0).val; omega
    | ⟨1, _⟩ => show win1_0.index t (1 : Fin 2) * 128 + 1 * (y' 1).val = (i 1).val; omega
  · intro j
    show V c main_arg4 (((cfg1.win 1).blk t).view.emb j) = V c main_arg4 j
    refine congrArg _ (funext fun a => Fin.ext ?_)
    match a with
    | ⟨0, _⟩ => show win1_1.index t (0 : Fin 2) * 128 + 1 * (j 0).val = (j 0).val; omega
    | ⟨1, _⟩ => show win1_1.index t (1 : Fin 2) * 64 + 1 * (j 1).val = (j 1).val; omega
  · show win1_2.index t (0 : Fin 2) * 5000 + 1 * (y 0).val = t.val * 5000 + (y 0).val; omega
  · show win1_2.index t (1 : Fin 2) * 64 + 1 * (y 1).val = (y 1).val; omega

/-- An index of the output array is in point t's block iff each coordinate is in the block's range on its axis. -/
theorem mem_block1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v72).slice (win1_2.rect t)).set ↔ _
  rw [View.set_slice_whole, Rect.mem_set_unit]
  exact Iff.rfl

/-- The 20 row blocks tile the 100000 rows: row r lies in the block of point r / 5000, and every point writes back. -/
theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := rfl
  have ht : (i 0).val / 5000 < cfg1.N := by rw [hN]; omega
  obtain ⟨-, -, -, -, o0, o1⟩ := blockIndex1 ⟨(i 0).val / 5000, ht⟩
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [o1]; omega

/-- REGION 1: the output array ends holding the contraction of the two operand arrays as the region finds them. -/
theorem region1_array (c : Dev nD) :
    ((dat1 (F := Ideal) V c).arrAt 2 cfg1.N : FVec Ideal S100000x64 .f32)
      = Host.dotGeneral (F := Ideal) (φ₁ := .f32) (φ₂ := .f32) Cert.ReferenceIdeal.dot_S100000x128_S128x64_S100000x64_1_0_0_1_n_n none (V c main_v48 : FVec Ideal S100000x128 .f32) (V c main_arg4 : FVec Ideal S128x64 .f32) :=
  (dat1 (F := Ideal) V c).arrAt_eq_of_cover 2 _ (fun t _ => flushed1_eq V c t) covered1

end Cert.KernelIdeal.Projection
end
-- ==== Proof.HostFold.lean ====
/-
  Both programs are the same two-layer graph convolution, host operation for host operation: the edge list with
  self loops appended, the in-degree by a scatter-add of ones, its inverse square root where positive, the per-edge
  weight as the product of the two gathered factors, and per layer a projection of the node features, a gather of
  the projected rows at the edges' sources scaled by the weight, a scatter-add at the targets, the bias, and between
  the layers a maximum with zero. They differ only in the two projections: the reference has a host `dot_general`
  where the kernel launches a pipelined region.
  This module reads each region as that host operation on the buffer contents. A region leaves its output array at
  what its write-backs fold to and every other buffer as entered; when that array is the `dot_general` of the
  region's two operand arrays (the hypothesis here, shown for the exact reals in the module on the projections),
  the contents after the region are those after the host operation. The kernel's @main is then the reference's list
  of operations, and the result buffer's last contents are the reference's composed term of the same arguments — for
  any float family: nothing here opens an arithmetic operation.
-/
import proofs.«115041_j18915035972100_1_alg».proof.Proof.Gen.KernelIdeal.Frame
import proofs.«115041_j18915035972100_1_alg».proof.Proof.Gen.ReferenceIdeal
import proofs.«115041_j18915035972100_1_alg».proof.Proof.RefRun
import Idealize.ShloMosaic.Lib.StableHlo.Run

noncomputable section
namespace Cert.KernelIdeal.Fold
open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The host operation the first projection stands for: the reference's `dot_general` of the node features and the
    first weight matrix, written to the projection's result buffer. -/
abbrev proj0 : HloOp τ sig (Elt F) :=
  StableHlo.binary main_arg0 main_arg2 main_v31 ((fun l r => Host.dotGeneral Cert.ReferenceIdeal.dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))

/-- The host operation the second projection stands for. -/
abbrev proj1 : HloOp τ sig (Elt F) :=
  StableHlo.binary main_v48 main_arg4 main_v72 ((fun l r => Host.dotGeneral Cert.ReferenceIdeal.dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F))

/-- If the first region's output array ends at the `dot_general` of its two operand arrays, the region changes the
    buffer contents exactly as that host operation would: the output buffer at the product, every other buffer kept
    (the two operand arrays are read, never written back). -/
theorem W4_eq_of (c : Dev nD)
    (h : (dat0 (V3 m ρ) c).arrAt 2 cfg0.N = proj0.result (W3 m ρ c) (Proc.devRef .tc main_v31)) :
    W4 m ρ c = (proj0 (F := F)).result (W3 m ρ c) := by
  funext b
  by_cases hb : ∃ w, Proc.devRef .tc (Pipeline.arrRef spec0 w) = b
  · obtain ⟨w, rfl⟩ := hb
    match w with
    | ⟨0, _⟩ =>
      exact ((W4_arr m ρ c 0).trans (((dat0 (V3 m ρ) c).arrAt_in 0 rfl _).trans (A_eq0 (V3 m ρ) c 0))).trans
        (StableHlo.binary_result_ne (r := main_arg0) _ _ _ _ _ _ _ _ (by decide)).symm
    | ⟨1, _⟩ =>
      exact ((W4_arr m ρ c 1).trans (((dat0 (V3 m ρ) c).arrAt_in 1 rfl _).trans (A_eq0 (V3 m ρ) c 1))).trans
        (StableHlo.binary_result_ne (r := main_arg2) _ _ _ _ _ _ _ _ (by decide)).symm
    | ⟨2, _⟩ => exact (W4_arr m ρ c 2).trans h
  · have hw : b ∉ (proj0 (F := F)).writes := by
      rw [StableHlo.binary_writes, Finset.mem_singleton]
      exact fun e => hb ⟨2, e.symm⟩
    rw [HloOp.result_of_not_mem _ _ hw]
    unfold W4 Pipeline.withArrays
    rw [dif_neg hb]

theorem W10_eq_of (c : Dev nD)
    (h : (dat1 (V9 m ρ) c).arrAt 2 cfg1.N = proj1.result (W9 m ρ c) (Proc.devRef .tc main_v72)) :
    W10 m ρ c = (proj1 (F := F)).result (W9 m ρ c) := by
  funext b
  by_cases hb : ∃ w, Proc.devRef .tc (Pipeline.arrRef spec1 w) = b
  · obtain ⟨w, rfl⟩ := hb
    match w with
    | ⟨0, _⟩ =>
      exact ((W10_arr m ρ c 0).trans (((dat1 (V9 m ρ) c).arrAt_in 0 rfl _).trans (A_eq1 (V9 m ρ) c 0))).trans
        (StableHlo.binary_result_ne (r := main_v48) _ _ _ _ _ _ _ _ (by decide)).symm
    | ⟨1, _⟩ =>
      exact ((W10_arr m ρ c 1).trans (((dat1 (V9 m ρ) c).arrAt_in 1 rfl _).trans (A_eq1 (V9 m ρ) c 1))).trans
        (StableHlo.binary_result_ne (r := main_arg4) _ _ _ _ _ _ _ _ (by decide)).symm
    | ⟨2, _⟩ => exact (W10_arr m ρ c 2).trans h
  · have hw : b ∉ (proj1 (F := F)).writes := by
      rw [StableHlo.binary_writes, Finset.mem_singleton]
      exact fun e => hb ⟨2, e.symm⟩
    rw [HloOp.result_of_not_mem _ _ hw]
    unfold W10 Pipeline.withArrays
    rw [dif_neg hb]

open Idealize.ShloMosaic.StableHlo in
set_option maxRecDepth 8192 in
set_option maxHeartbeats 46400000 in
/-- With each projection read as its host operation, the kernel's @main is the reference's @main operation for
    operation, so the result buffer's last contents are the reference's composed term of the same arguments. -/
theorem result_eq_reference (c : Dev nD)
    (h0 : W4 m ρ c = (proj0 (F := F)).result (W3 m ρ c)) (h1 : W10 m ρ c = (proj1 (F := F)).result (W9 m ρ c))
    (m' : (ℓ : Loc Cert.ReferenceIdeal.nD Cert.ReferenceIdeal.τ Cert.ReferenceIdeal.sig) → Buf (Elt F) ℓ)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    W11 m ρ c (Proc.devRef .tc main_v88) = Cert.ReferenceIdeal.RunP.res_main_v88 m' c := by
  obtain ⟨e0, e1, e2, e3, e4, e5⟩ := hagree
  unfold Cert.ReferenceIdeal.RunP.res_main_v88
  rw [e0, e1, e2, e3, e4, e5]
  unfold W11
  rw [h1]
  unfold W9 W8 W7 W6 W5
  rw [h0]
  unfold W3 W2 W1
  after_results_simp <;> rfl

end Cert.KernelIdeal.Fold
end
-- ==== Proof.lean ====
/-
  The claim: the kernel (a two-layer graph convolution whose two feature projections x·W are pipelined matrix-product
  kernels over 20 row blocks of 5000 nodes, the rest plain host operations) against its reference (the same host
  operations with a host `dot_general` for each projection), as functions over the extended reals.
  The three frames: the kernel's two, word-level and idealized, are the generated frame certificates; the reference's is
  its run with the result dropped. The idealization rewrote nothing, so `preserves` is `True`.
  The value claim. At the exact reals a cast between float formats is the identity and a matrix product into a zero
  accumulator is the plain sum over the contracted axis, so block t of a projection's output holds rows
  [5000 t, 5000 t + 5000) of the `dot_general` of the whole operands; the 20 blocks tile the rows, hence each region
  leaves its output array at the `dot_general` of its two operand arrays (Proof/ProjectionArrays.lean). A region therefore
  changes the buffer contents as the reference's host operation does, and the kernel's @main becomes the reference's
  list of operations: its result is the reference's composed term of the same arguments (Proof/HostFold.lean). No
  algebraic law beyond the definition of the two products is used, and none that needs finite inputs: the precondition
  is never opened.
-/
import proofs.«115041_j18915035972100_1_alg».proof.Defs
import proofs.«115041_j18915035972100_1_alg».proof.Proof.Gen.Kernel
import proofs.«115041_j18915035972100_1_alg».proof.Proof.Gen.Kernel.Skeleton
import proofs.«115041_j18915035972100_1_alg».proof.Proof.Gen.Kernel.Launch
import proofs.«115041_j18915035972100_1_alg».proof.Proof.Gen.Kernel.Points
import proofs.«115041_j18915035972100_1_alg».proof.Proof.Gen.Kernel.Frame
import proofs.«115041_j18915035972100_1_alg».proof.Proof.Gen.KernelIdeal
import proofs.«115041_j18915035972100_1_alg».proof.Proof.Gen.KernelIdeal.Skeleton
import proofs.«115041_j18915035972100_1_alg».proof.Proof.Gen.KernelIdeal.Launch
import proofs.«115041_j18915035972100_1_alg».proof.Proof.Gen.KernelIdeal.Points
import proofs.«115041_j18915035972100_1_alg».proof.Proof.Gen.KernelIdeal.Frame
import proofs.«115041_j18915035972100_1_alg».proof.Proof.Gen.ReferenceIdeal
import proofs.«115041_j18915035972100_1_alg».proof.Proof.Gen.Pre_finite_inputs
import proofs.«115041_j18915035972100_1_alg».proof.Proof.RefRun
import proofs.«115041_j18915035972100_1_alg».proof.Proof.RunResult
import proofs.«115041_j18915035972100_1_alg».proof.Proof.ProjectionArrays
import proofs.«115041_j18915035972100_1_alg».proof.Proof.HostFold
import Idealize.ShloMosaic.Adequacy
import Idealize.ShloMosaic.Init

noncomputable section

namespace Cert.KernelIdeal.Fold

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- At the exact reals the first region leaves the buffers as the host `dot_general` of the node features and the
    first weight matrix would. -/
theorem W4_eq (c : Dev nD) : W4 m ρ c = (proj0 (F := Ideal)).result (W3 m ρ c) :=
  W4_eq_of m ρ c ((Cert.KernelIdeal.Projection.region0_array (V3 m ρ) c).trans
    (StableHlo.binary_result main_arg0 main_arg2 main_v31 _ _ _ _ (W3 m ρ c)).symm)

/-- And the second region as the host `dot_general` of the hidden features and the second weight matrix. -/
theorem W10_eq (c : Dev nD) : W10 m ρ c = (proj1 (F := Ideal)).result (W9 m ρ c) :=
  W10_eq_of m ρ c ((Cert.KernelIdeal.Projection.region1_array (V9 m ρ) c).trans
    (StableHlo.binary_result main_v48 main_arg4 main_v72 _ _ _ _ (W9 m ρ c)).symm)

end Cert.KernelIdeal.Fold

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- The kernel's result buffer ends at the last boundary's contents, which are the reference's composed term of the
    kernel's arguments; the reference's ends at that term of its own arguments, and the arguments agree. -/
theorem algebraic : Cert.algebraic_KernelIdeal_ReferenceIdeal := by
  intro m ρ m' ρ' _ hagree
  refine ⟨fun c => Cert.KernelIdeal.Gen.W11 m ρ c (Proc.devRef .tc Cert.KernelIdeal.main_v88),
    Cert.KernelIdeal.GenRun.run_result m ρ, ?_⟩
  refine (θ_run Cert.ReferenceIdeal.defs _ _).mono (fun _ h c => ⟨(h c).1.trans ?_, (h c).2⟩)
    (Cert.ReferenceIdeal.RunP.run (F := Ideal) m' ρ')
  exact (Cert.KernelIdeal.Fold.result_eq_reference m ρ c (Cert.KernelIdeal.Fold.W4_eq m ρ c)
    (Cert.KernelIdeal.Fold.W10_eq m ρ c) m' (hagree c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
